-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1200000 : Shape := ⟨1, ![1200000]⟩
abbrev S200000x64 : Shape := ⟨2, ![200000, 64]⟩
abbrev S100000x64 : Shape := ⟨2, ![100000, 64]⟩
abbrev S64x64 : Shape := ⟨2, ![64, 64]⟩
abbrev S_ : Shape := ⟨0, ![]⟩

class Facts : Prop where
  bcast_S_S1200000 : S_.BroadcastsInDim S1200000 (![] : Fin 0 → Fin S1200000.rank)
  reducesTo_S1200000_S_d0 : S1200000.ReducesTo [0] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : IVec S1200000 32) (main_arg1 : IVec S1200000 32) (main_arg2 : FVec F S1200000 .f32) (main_arg3 : FVec F S200000x64 .f32) (main_arg4 : FVec F S100000x64 .f32) (main_arg5 : FVec F S64x64 .f32) : IVec S_ 1 :=
  let main_v0 : FVec F S1200000 .f32 := Host.absf main_arg2
  let main_cst : FVec F S_ .f32 := constant S_ .f32 0x7F800000#32
  let main_v1 : FVec F S1200000 .f32 := broadcastInDim S1200000 ![] bcast_S_S1200000 main_cst
  let main_v2 : IVec S1200000 1 := cmpf .olt main_v0 main_v1
  let main_c : IVec S_ 1 := constantI S_ 1 1#1
  let main_v3 : IVec S_ 1 := (fun x v => Host.reduce IntOp.andi x v reducesTo_S1200000_S_d0 h_S_) main_v2 main_c
  let main_v4 : FVec F S200000x64 .f32 := Host.absf main_arg3
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S100000x64 .f32 := Host.absf main_arg4
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S1200000 : Shape := ⟨1, ![1200000]⟩
abbrev S200000x64 : Shape := ⟨2, ![200000, 64]⟩
abbrev S100000x64 : Shape := ⟨2, ![100000, 64]⟩
abbrev S64x64 : Shape := ⟨2, ![64, 64]⟩
abbrev S300000x64 : Shape := ⟨2, ![300000, 64]⟩
abbrev S1200000x1 : Shape := ⟨2, ![1200000, 1]⟩
abbrev S_ : Shape := ⟨0, ![]⟩
abbrev S1200000x64 : Shape := ⟨2, ![1200000, 64]⟩
abbrev S300000x128 : Shape := ⟨2, ![300000, 128]⟩
abbrev S3000x64 : Shape := ⟨2, ![3000, 64]⟩
abbrev S3000x128 : Shape := ⟨2, ![3000, 128]⟩
abbrev S200000x128 : Shape := ⟨2, ![200000, 128]⟩
abbrev S100000x128 : Shape := ⟨2, ![100000, 128]⟩

abbrev nBuf : Space → Nat
  | .hbm => 26
  | .vmem => 7
  | .smem => 0
  | _ => 0

abbrev bufTy : (tb : Table) → Fin (tcTables nBuf tb) → BufTy
  | .hbm, ⟨0, _⟩ => ⟨S1200000, .i32⟩
  | .hbm, ⟨1, _⟩ => ⟨S1200000, .i32⟩
  | .hbm, ⟨2, _⟩ => ⟨S1200000, .f32⟩
  | .hbm, ⟨3, _⟩ => ⟨S200000x64, .f32⟩
  | .hbm, ⟨4, _⟩ => ⟨S100000x64, .f32⟩
  | .hbm, ⟨5, _⟩ => ⟨S64x64, .f32⟩
  | .hbm, ⟨6, _⟩ => ⟨S300000x64, .f32⟩
  | .hbm, ⟨7, _⟩ => ⟨S1200000x1, .f32⟩
  | .hbm, ⟨8, _⟩ => ⟨S_, .i32⟩
  | .hbm, ⟨9, _⟩ => ⟨S1200000, .i32⟩
  | .hbm, ⟨10, _⟩ => ⟨S1200000, .i1⟩
  | .hbm, ⟨11, _⟩ => ⟨S_, .i32⟩
  | .hbm, ⟨12, _⟩ => ⟨S1200000, .i32⟩
  | .hbm, ⟨13, _⟩ => ⟨S1200000, .i32⟩
  | .hbm, ⟨14, _⟩ => ⟨S1200000, .i32⟩
  | .hbm, ⟨15, _⟩ => ⟨S1200000x1, .i32⟩
  | .hbm, ⟨16, _⟩ => ⟨S1200000x64, .f32⟩
  | .hbm, ⟨17, _⟩ => ⟨S1200000x64, .f32⟩
  | .hbm, ⟨18, _⟩ => ⟨S1200000x64, .f32⟩
  | .hbm, ⟨19, _⟩ => ⟨S_, .f32⟩
  | .hbm, ⟨20, _⟩ => ⟨S300000x64, .f32⟩
  | .hbm, ⟨21, _⟩ => ⟨S1200000x1, .i32⟩
  | .hbm, ⟨22, _⟩ => ⟨S300000x64, .f32⟩
  | .hbm, ⟨23, _⟩ => ⟨S300000x128, .f32⟩
  | .hbm, ⟨24, _⟩ => ⟨S200000x128, .f32⟩
  | .hbm, ⟨25, _⟩ => ⟨S100000x128, .f32⟩
  | .local _ .vmem, ⟨0, _⟩ => ⟨S3000x64, .f32⟩
  | .local _ .vmem, ⟨1, _⟩ => ⟨S3000x64, .f32⟩
  | .local _ .vmem, ⟨2, _⟩ => ⟨S3000x64, .f32⟩
  | .local _ .vmem, ⟨3, _⟩ => ⟨S3000x64, .f32⟩
  | .local _ .vmem, ⟨4, _⟩ => ⟨S64x64, .f32⟩
  | .local _ .vmem, ⟨5, _⟩ => ⟨S3000x128, .f32⟩
  | .local _ .vmem, ⟨6, _⟩ => ⟨S3000x128, .f32⟩
  | _, _ => ⟨S1200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S200000x64_S100000x64_S300000x64_d0 : Shape.Concatenates [S200000x64, S100000x64] S300000x64 0
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S300000x64 : S_.BroadcastsInDim S300000x64 (![] : Fin 0 → Fin S300000x64.rank)
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  concatenates_S3000x64_S3000x64_S3000x128_d1 : Shape.Concatenates [S3000x64, S3000x64] S3000x128 1
  inb_S3000x128_S3000x128_0_0 : ∀ a, (![0, 0] : Fin 2 → Nat) a + S3000x128.size a ≤ S3000x128.size a
  h_S3000x128 : 0 < S3000x128.numel
  slices_S300000x128_S200000x128_0_0 : S300000x128.Slices ![0, 0] S200000x128
  slices_S300000x128_S100000x128_200000_0 : S300000x128.Slices ![200000, 0] S100000x128
  gather_S300000x64_S1200000x1_S1200000x64_1_0_n_n_0_1_164_wf : GatherDims.WF S300000x64 S1200000x1 S1200000x64 [1] [0] [] [0] [] 1 ![1, 64]
  scatter_S300000x64_S1200000x1_S1200000x64_1_0_0_1_wf : ScatterDims.WF S300000x64 S1200000x1 S1200000x64 [1] [0] [0] 1
  dot_S3000x64_S64x64_S3000x64_1_0_0_1_n_n_wf : DotDims.WF S3000x64 S64x64 S3000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S300000x64.size a
  hwx0_0 : ∀ i : grid0.Coords, EltTy.bits .f32 = 32 ∨ (Rect.block (s := S300000x64) S3000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x64.size a ≤ S300000x64.size a
  hwx0_1 : ∀ i : grid0.Coords, EltTy.bits .f32 = 32 ∨ (Rect.block (s := S300000x64) S3000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3000x128.size a ≤ S300000x128.size a
  hwx0_3 : ∀ i : grid0.Coords, EltTy.bits .f32 = 32 ∨ (Rect.block (s := S300000x128) S3000x128.size (cc0_transform_3 i) (hinb0_3 i)).WholeWords (EltTy.packing .f32)

variable [Facts₀]

def gather_S300000x64_S1200000x1_S1200000x64_1_0_n_n_0_1_164 : GatherDims S300000x64 S1200000x1 S1200000x64 where
  offsetDims := [1]
  collapsedSliceDims := [0]
  operandBatchingDims := []
  startIndicesBatchingDims := []
  startIndexMap := [0]
  indexVectorDim := 1
  sliceSizes := ![1, 64]
  wf := gather_S300000x64_S1200000x1_S1200000x64_1_0_n_n_0_1_164_wf
def scatter_S300000x64_S1200000x1_S1200000x64_1_0_0_1 : ScatterDims S300000x64 S1200000x1 S1200000x64 where
  updateWindowDims := [1]
  insertedWindowDims := [0]
  scatterDimsToOperandDims := [0]
  indexVectorDim := 1
  wf := scatter_S300000x64_S1200000x1_S1200000x64_1_0_0_1_wf
def dot_S3000x64_S64x64_S3000x64_1_0_0_1_n_n : DotDims S3000x64 S64x64 S3000x64 where
  lhsContracting := [1]
  rhsContracting := [0]
  lhsNonContracting := [0]
  rhsNonContracting := [1]
  lhsBatch := []
  rhsBatch := []
  wf := dot_S3000x64_S64x64_S3000x64_1_0_0_1_n_n_wf

abbrev win0_0 : Pipeline.Window sig grid0 :=
  Pipeline.Window.ofSpec (Memref.whole main_v0) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S3000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1200000 : Shape := ⟨1, ![1200000]⟩
abbrev S200000x64 : Shape := ⟨2, ![200000, 64]⟩
abbrev S100000x64 : Shape := ⟨2, ![100000, 64]⟩
abbrev S64x64 : Shape := ⟨2, ![64, 64]⟩
abbrev S300000x64 : Shape := ⟨2, ![300000, 64]⟩
abbrev S1200000x1 : Shape := ⟨2, ![1200000, 1]⟩
abbrev S_ : Shape := ⟨0, ![]⟩
abbrev S1200000x64 : Shape := ⟨2, ![1200000, 64]⟩
abbrev S300000x128 : Shape := ⟨2, ![300000, 128]⟩
abbrev S200000x128 : Shape := ⟨2, ![200000, 128]⟩
abbrev S100000x128 : Shape := ⟨2, ![100000, 128]⟩

abbrev nBuf : Space → Nat
  | .hbm => 39
  | .vmem => 0
  | .smem => 0
  | _ => 0

abbrev bufTy : (tb : Table) → Fin (tcTables nBuf tb) → BufTy
  | .hbm, ⟨0, _⟩ => ⟨S1200000, .i32⟩
  | .hbm, ⟨1, _⟩ => ⟨S1200000, .i32⟩
  | .hbm, ⟨2, _⟩ => ⟨S1200000, .f32⟩
  | .hbm, ⟨3, _⟩ => ⟨S200000x64, .f32⟩
  | .hbm, ⟨4, _⟩ => ⟨S100000x64, .f32⟩
  | .hbm, ⟨5, _⟩ => ⟨S64x64, .f32⟩
  | .hbm, ⟨6, _⟩ => ⟨S300000x64, .f32⟩
  | .hbm, ⟨7, _⟩ => ⟨S1200000x1, .f32⟩
  | .hbm, ⟨8, _⟩ => ⟨S_, .i32⟩
  | .hbm, ⟨9, _⟩ => ⟨S1200000, .i32⟩
  | .hbm, ⟨10, _⟩ => ⟨S1200000, .i1⟩
  | .hbm, ⟨11, _⟩ => ⟨S_, .i32⟩
  | .hbm, ⟨12, _⟩ => ⟨S1200000, .i32⟩
  | .hbm, ⟨13, _⟩ => ⟨S1200000, .i32⟩
  | .hbm, ⟨14, _⟩ => ⟨S1200000, .i32⟩
  | .hbm, ⟨15, _⟩ => ⟨S1200000x1, .i32⟩
  | .hbm, ⟨16, _⟩ => ⟨S1200000x64, .f32⟩
  | .hbm, ⟨17, _⟩ => ⟨S1200000x64, .f32⟩
  | .hbm, ⟨18, _⟩ => ⟨S1200000x64, .f32⟩
  | .hbm, ⟨19, _⟩ => ⟨S_, .f32⟩
  | .hbm, ⟨20, _⟩ => ⟨S300000x64, .f32⟩
  | .hbm, ⟨21, _⟩ => ⟨S1200000x1, .i32⟩
  | .hbm, ⟨22, _⟩ => ⟨S300000x64, .f32⟩
  | .hbm, ⟨23, _⟩ => ⟨S_, .f32⟩
  | .hbm, ⟨24, _⟩ => ⟨S300000x64, .f32⟩
  | .hbm, ⟨25, _⟩ => ⟨S300000x64, .f32⟩
  | .hbm, ⟨26, _⟩ => ⟨S300000x64, .f32⟩
  | .hbm, ⟨27, _⟩ => ⟨S300000x64, .f32⟩
  | .hbm, ⟨28, _⟩ => ⟨S300000x64, .f32⟩
  | .hbm, ⟨29, _⟩ => ⟨S300000x64, .f32⟩
  | .hbm, ⟨30, _⟩ => ⟨S_, .f32⟩
  | .hbm, ⟨31, _⟩ => ⟨S300000x64, .f32⟩
  | .hbm, ⟨32, _⟩ => ⟨S300000x64, .f32⟩
  | .hbm, ⟨33, _⟩ => ⟨S_, .f32⟩
  | .hbm, ⟨34, _⟩ => ⟨S300000x64, .f32⟩
  | .hbm, ⟨35, _⟩ => ⟨S300000x64, .f32⟩
  | .hbm, ⟨36, _⟩ => ⟨S300000x128, .f32⟩
  | .hbm, ⟨37, _⟩ => ⟨S200000x128, .f32⟩
  | .hbm, ⟨38, _⟩ => ⟨S100000x128, .f32⟩
  | _, _ => ⟨S1200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  concatenates_S200000x64_S100000x64_S300000x64_d0 : Shape.Concatenates [S200000x64, S100000x64] S300000x64 0
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S300000x64 : S_.BroadcastsInDim S300000x64 (![] : Fin 0 → Fin S300000x64.rank)
  concatenates_S300000x64_S300000x64_S300000x128_d1 : Shape.Concatenates [S300000x64, S300000x64] S300000x128 1
  slices_S300000x128_S200000x128_0_0 : S300000x128.Slices ![0, 0] S200000x128
  slices_S300000x128_S100000x128_200000_0 : S300000x128.Slices ![200000, 0] S100000x128
  gather_S300000x64_S1200000x1_S1200000x64_1_0_n_n_0_1_164_wf : GatherDims.WF S300000x64 S1200000x1 S1200000x64 [1] [0] [] [0] [] 1 ![1, 64]
  scatter_S300000x64_S1200000x1_S1200000x64_1_0_0_1_wf : ScatterDims.WF S300000x64 S1200000x1 S1200000x64 [1] [0] [0] 1
  dot_S300000x64_S64x64_S300000x64_1_0_0_1_n_n_wf : DotDims.WF S300000x64 S64x64 S300000x64 [1] [0] [0] [1] [] []

variable [Facts₀]

def gather_S300000x64_S1200000x1_S1200000x64_1_0_n_n_0_1_164 : GatherDims S300000x64 S1200000x1 S1200000x64 where
  offsetDims := [1]
  collapsedSliceDims := [0]
  operandBatchingDims := []
  startIndicesBatchingDims := []
  startIndexMap := [0]
  indexVectorDim := 1
  sliceSizes := ![1, 64]
  wf := gather_S300000x64_S1200000x1_S1200000x64_1_0_n_n_0_1_164_wf
def scatter_S300000x64_S1200000x1_S1200000x64_1_0_0_1 : ScatterDims S300000x64 S1200000x1 S1200000x64 where
  updateWindowDims := [1]
  insertedWindowDims := [0]
  scatterDimsToOperandDims := [0]
  indexVectorDim := 1
  wf := scatter_S300000x64_S1200000x1_S1200000x64_1_0_0_1_wf
def dot_S300000x64_S64x64_S300000x64_1_0_0_1_n_n : DotDims S300000x64 S64x64 S300000x64 where
  lhsContracting := [1]
  rhsContracting := [0]
  lhsNonContracting := [0]
  rhsNonContracting := [1]
  lhsBatch := []
  rhsBatch := []
  wf := dot_S300000x64_S64x64_S300000x64_1_0_0_1_n_n_wf

class Facts : Prop extends Facts₀ where

variable [Facts]
-- ==== Proof.Spec.lean ====
/-
  The mathematics both programs compute, stated once over whole arrays.

  With `emb` the 300000 × 64 table of embeddings, `agg` the aggregated neighbour table of the same shape and
  `filt` a 64 × 64 filter, the result is the 300000 × 128 array whose row `r` is

      emb[r, 0..63]  followed by  σ(Σ_k (2·emb[r, k] − agg[r, k]) · filt[k, j])  for j = 0..63,

  where σ(s) = 1 / (1 + e^(−s)) on the extended reals (with σ(−∞) = 0 and σ(+∞) = 1). Only the value of a row's
  own entries of `emb` and `agg` enters row `r`: this is what lets a row tile be computed on its own.
-/
import Idealize.ShloMosaic.PureOps.Ideal
import Idealize.ShloMosaic.PureOps.Ideal.Laws
import Idealize.ShloMosaic.Lib.ValueIdx
import Idealize.ShloMosaic.Lib.Pipeline.Value

noncomputable section

namespace Cert.Combine

open Idealize.ShloMosaic Idealize.ShloMosaic.ValueIdx

/-- The table shape, the filter shape and the result shape. -/
abbrev STab : Shape := ⟨2, ![300000, 64]⟩
abbrev SFilt : Shape := ⟨2, ![64, 64]⟩
abbrev SRes : Shape := ⟨2, ![300000, 128]⟩

/-- The scale of the self term: the single-precision word of 2, read as an extended real. -/
abbrev two : EReal := Ideal.ofBits .f32 0x40000000#32

/-- Entry `(r, j)` of the filtered half: the logistic of row `r` of `2·emb − agg` against column `j` of the filter. -/
def filtered (emb agg : STab.Idx → EReal) (filt : SFilt.Idx → EReal) (r : Fin 300000) (j : Fin 64) : EReal :=
  Ideal.logistic (∑ k : Fin 64, (two * emb (ix2 r k) - agg (ix2 r k)) * filt (ix2 k j))

/-- The whole result: columns below 64 copy `emb`, columns from 64 on hold the filtered half. -/
def combined (emb agg : STab.Idx → EReal) (filt : SFilt.Idx → EReal) : SRes.Idx → EReal := fun i =>
  if h : (i 1).val < 64 then emb (ix2 ⟨(i 0).val, idx2_lt0 i⟩ ⟨(i 1).val, h⟩)
  else filtered emb agg filt ⟨(i 0).val, idx2_lt0 i⟩ ⟨(i 1).val - 64, by have := idx2_lt1 i; omega⟩

/-- A left-half entry is the embedding's. -/
theorem combined_left (emb agg : STab.Idx → EReal) (filt : SFilt.Idx → EReal) (r : Fin 300000) (q : Fin 128)
    (h : q.val < 64) : combined emb agg filt (ix2 r q) = emb (ix2 r ⟨q.val, h⟩) := by
  unfold combined
  rw [dif_pos (show ((ix2 r q : SRes.Idx) 1).val < 64 from h)]

/-- A right-half entry is the filtered one, the column counted from 64. -/
theorem combined_right (emb agg : STab.Idx → EReal) (filt : SFilt.Idx → EReal) (r : Fin 300000) (q : Fin 128)
    (h : 64 ≤ q.val) : combined emb agg filt (ix2 r q) = filtered emb agg filt r ⟨q.val - 64, by have := q.isLt; omega⟩ := by
  unfold combined
  rw [dif_neg (show ¬ ((ix2 r q : SRes.Idx) 1).val < 64 from Nat.not_lt.2 h)]

/-- The single-precision word of 1 is the extended real 1. -/
theorem one_f32 : Ideal.ofBits .f32 0x3F800000#32 = 1 := by
  simp [Ideal.ofBits, Ideal.ieee, -EReal.coe_mul]; norm_num

/-- The logistic written out as a quotient with the words of 1, as a host program spells it. -/
theorem logistic_spelt (s : EReal) :
    Ideal.div (Ideal.ofBits .f32 0x3F800000#32) (Ideal.ofBits .f32 0x3F800000#32 + Ideal.exp (-s)) = Ideal.logistic s := by
  rw [one_f32]; rfl

end Cert.Combine

end
-- ==== Proof.Whole.lean ====
/-
  The reference's result, read entry by entry, is the specification.

  The host program forms the embedding table `emb` (users above items), the aggregated table `agg` (a gather along
  the edges' columns, scaled by the edge values and summed into the edges' rows), then `2·emb − agg`, its product with
  the filter, the logistic spelt as `1 / (1 + e^(−s))`, and joins `emb` with that along the columns. Entry by entry
  the product is a sum over the contracted index, and the spelt quotient is the logistic, so the joined array is
  `combined emb agg filt`. The two results are its first 200000 rows and its last 100000 rows.
-/
import proofs.«139854_j4269197492539_1_alg».proof.Proof.RefRead
import proofs.«139854_j4269197492539_1_alg».proof.Proof.Spec

noncomputable section

namespace Cert.ReferenceIdeal.Whole

open Cert.ReferenceIdeal Cert.ReferenceIdeal.Gen Cert.ReferenceIdeal.ReadP Idealize.ShloMosaic Idealize.ShloMosaic.ValueIdx
open Cert.Combine (two filtered combined)

variable (x0 x1 : (⟨S1200000, .i32⟩ : BufTy).Contents (Elt Ideal)) (x2 : (⟨S1200000, .f32⟩ : BufTy).Contents (Elt Ideal))
  (x3 : (⟨S200000x64, .f32⟩ : BufTy).Contents (Elt Ideal)) (x4 : (⟨S100000x64, .f32⟩ : BufTy).Contents (Elt Ideal))
  (x5 : (⟨S64x64, .f32⟩ : BufTy).Contents (Elt Ideal))

/-- The product's left operand is read along row `p`, -/
theorem left_index (p : Fin 300000) (j k : Fin 64) : lidx_main_v17 (ix2 p j) k = ix2 p k :=
  funext fun a => Fin.ext (by
    match a with
    | ⟨0, _⟩ => rfl
    | ⟨1, _⟩ => rfl)
/-- and its right operand down column `j`. -/
theorem right_index (p : Fin 300000) (j k : Fin 64) : ridx_main_v17 (ix2 p j) k = ix2 k j :=
  funext fun a => Fin.ext (by
    match a with
    | ⟨0, _⟩ => rfl
    | ⟨1, _⟩ => rfl)

/-- Entry `(p, j)` of the reference's logistic stage is the filtered entry of its own two tables. -/
theorem filtered_half (p : Fin 300000) (j : Fin 64) :
    val_main_v23 (F := Ideal) x0 x1 x2 x3 x4 x5 (ix2 p j)
      = filtered (val_main_v0 (F := Ideal) x3 x4) (val_main_v13 (F := Ideal) x0 x1 x2 x3 x4) x5 p j := by
  rw [val_main_v23_apply, val_main_v22_apply, val_main_cst_3_apply, val_main_v21_apply, val_main_v20_apply,
    val_main_cst_2_apply, val_main_v19_apply, val_main_v18_apply, val_main_v17_apply]
  simp only [val_main_v16_apply, val_main_v15_apply, val_main_v14_apply, val_main_cst_1_apply, left_index, right_index,
    Ideal.hostDivf_def, Ideal.addf_def, Ideal.hostUnary_exp_def, Ideal.hostNegf_def, Ideal.negf_def, Ideal.subf_def,
    Ideal.mulf_def, Ideal.ofBits_def]
  exact Cert.Combine.logistic_spelt _

/-- The joined array is the specification of the reference's own two tables and the filter. -/
theorem joined_eq :
    val_main_v24 (F := Ideal) x0 x1 x2 x3 x4 x5
      = combined (val_main_v0 (F := Ideal) x3 x4) (val_main_v13 (F := Ideal) x0 x1 x2 x3 x4) x5 := by
  funext i
  obtain ⟨p, q, rfl⟩ : ∃ (p : Fin 300000) (q : Fin 128), i = ix2 p q := ⟨i 0, i 1, eq_ix2 i⟩
  unfold val_main_v24
  by_cases h : q.val < 64
  · rw [Cert.Combine.combined_left _ _ _ p q h]
    refine concatenate_pair_apply_left (1 : Fin S300000x128.rank) _ _ concatenates_S300000x64_S300000x64_S300000x128_d1
      (ix2 p q) rfl (ix2 p ⟨q.val, h⟩) fun b => ?_
    match b with
    | ⟨0, _⟩ => rfl
    | ⟨1, _⟩ => rfl
  · have h' : 64 ≤ q.val := Nat.le_of_not_lt h
    rw [Cert.Combine.combined_right _ _ _ p q h', ← filtered_half]
    refine concatenate_pair_apply_right (1 : Fin S300000x128.rank) _ _ concatenates_S300000x64_S300000x64_S300000x128_d1
      (ix2 p q) rfl rfl (ix2 p ⟨q.val - 64, by have := q.isLt; omega⟩) (fun b hb => ?_) ?_
    · match b with
      | ⟨0, _⟩ => rfl
      | ⟨1, _⟩ => exact absurd rfl hb
    · show (q.val - 64) + 64 = q.val
      omega

/-- The first result: the users' rows of the specification. -/
theorem users_eq :
    val_main_v25 (F := Ideal) x0 x1 x2 x3 x4 x5
      = extractStridedSlice S200000x128 ![0, 0]
          (combined (val_main_v0 (F := Ideal) x3 x4) (val_main_v13 (F := Ideal) x0 x1 x2 x3 x4) x5)
          slices_S300000x128_S200000x128_0_0 := by
  unfold val_main_v25
  rw [joined_eq]

/-- The second result: the items' rows of the specification. -/
theorem items_eq :
    val_main_v26 (F := Ideal) x0 x1 x2 x3 x4 x5
      = extractStridedSlice S100000x128 ![200000, 0]
          (combined (val_main_v0 (F := Ideal) x3 x4) (val_main_v13 (F := Ideal) x0 x1 x2 x3 x4) x5)
          slices_S300000x128_S100000x128_200000_0 := by
  unfold val_main_v26
  rw [joined_eq]

end Cert.ReferenceIdeal.Whole

end
-- ==== Proof.Tile.lean ====
/-
  What one row tile of the kernel computes, entry by entry.

  The body loads a 3000 × 64 tile `x0` of the embeddings, the matching tile `x1` of the aggregated table and the whole
  64 × 64 filter `x2`, and stores a 3000 × 128 tile: `x0` itself in columns 0..63 and, in columns 64..127, the logistic
  of the product of `2·x0 − x1` with `x2`. On the extended reals the narrowing of both factors before the product
  is the identity, and a product accumulated onto zero is the plain sum over the contracted index. So entry `(p, q)`
  of the stored tile is `x0[p, q]` for q < 64 and `σ(Σ_k (2·x0[p, k] − x1[p, k]) · x2[k, q − 64])` otherwise.
-/
import proofs.«139854_j4269197492539_1_alg».proof.Proof.Gen.KernelIdeal.Skeleton
import proofs.«139854_j4269197492539_1_alg».proof.Proof.Spec
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx
open Cert.Combine (two)

/-! ## The product's operand indices: row `p` of the left factor against column `j` of the right one -/

theorem lhs_row (i : S3000x64.Idx) (q : dot_S3000x64_S64x64_S3000x64_1_0_0_1_n_n.contr.Idx) :
    (dot_S3000x64_S64x64_S3000x64_1_0_0_1_n_n.lhsIdx i q 0).val = (i 0).val := by
  unfold DotDims.lhsIdx
  rw [dif_neg (show ¬(0 : Fin S3000x64.rank) ∈ dot_S3000x64_S64x64_S3000x64_1_0_0_1_n_n.lhsBatch by decide), dif_pos (show (0 : Fin S3000x64.rank) ∈ dot_S3000x64_S64x64_S3000x64_1_0_0_1_n_n.lhsNonContracting by decide)]
  rfl
theorem lhs_contracted (i : S3000x64.Idx) (q : dot_S3000x64_S64x64_S3000x64_1_0_0_1_n_n.contr.Idx) :
    (dot_S3000x64_S64x64_S3000x64_1_0_0_1_n_n.lhsIdx i q 1).val = (q ⟨0, by decide⟩).val :=
  dot_S3000x64_S64x64_S3000x64_1_0_0_1_n_n.lhsIdx_val_of_single rfl i q
theorem rhs_contracted (i : S3000x64.Idx) (q : dot_S3000x64_S64x64_S3000x64_1_0_0_1_n_n.contr.Idx) :
    (dot_S3000x64_S64x64_S3000x64_1_0_0_1_n_n.rhsIdx i q 0).val = (q ⟨0, by decide⟩).val :=
  dot_S3000x64_S64x64_S3000x64_1_0_0_1_n_n.rhsIdx_val_of_single rfl i q
theorem rhs_col (i : S3000x64.Idx) (q : dot_S3000x64_S64x64_S3000x64_1_0_0_1_n_n.contr.Idx) :
    (dot_S3000x64_S64x64_S3000x64_1_0_0_1_n_n.rhsIdx i q 1).val = (i 1).val := by
  unfold DotDims.rhsIdx
  rw [dif_neg (show ¬(1 : Fin S64x64.rank) ∈ dot_S3000x64_S64x64_S3000x64_1_0_0_1_n_n.rhsBatch by decide), dif_pos (show (1 : Fin S64x64.rank) ∈ dot_S3000x64_S64x64_S3000x64_1_0_0_1_n_n.rhsNonContracting by decide)]
  rfl

/-- A tile's product accumulated onto zero, at entry `(p, j)`: the sum over `k` of row `p` against column `j`. -/
theorem tile_product (l : FVec Ideal S3000x64 .bf16) (r : FVec Ideal S64x64 .bf16) (p : Fin 3000) (j : Fin 64) :
    matmul dot_S3000x64_S64x64_S3000x64_1_0_0_1_n_n none l r (constant (F := Ideal) S3000x64 .f32 0x00000000#32) (ix2 p j)
      = ∑ k : Fin 64, l (ix2 p k) * r (ix2 k j) := by
  simp only [matmul]
  rw [Ideal.matmul_constant_zero_apply, ← Equiv.sum_comp (contrEquiv1 dot_S3000x64_S64x64_S3000x64_1_0_0_1_n_n 64 rfl rfl).symm]
  refine Finset.sum_congr rfl fun k _ => ?_
  have hk := contrEquiv1_symm_val dot_S3000x64_S64x64_S3000x64_1_0_0_1_n_n 64 rfl rfl k
  have el : dot_S3000x64_S64x64_S3000x64_1_0_0_1_n_n.lhsIdx (ix2 p j) ((contrEquiv1 dot_S3000x64_S64x64_S3000x64_1_0_0_1_n_n 64 rfl rfl).symm k) = ix2 p k := funext fun a => Fin.ext (by
    match a with
    | ⟨0, _⟩ => exact lhs_row _ _
    | ⟨1, _⟩ => exact (lhs_contracted _ _).trans hk)
  have er : dot_S3000x64_S64x64_S3000x64_1_0_0_1_n_n.rhsIdx (ix2 p j) ((contrEquiv1 dot_S3000x64_S64x64_S3000x64_1_0_0_1_n_n 64 rfl rfl).symm k) = ix2 k j := funext fun a => Fin.ext (by
    match a with
    | ⟨0, _⟩ => exact (rhs_contracted _ _).trans hk
    | ⟨1, _⟩ => exact rhs_col _ _)
  rw [el, er]

/-! ## The stored tile -/

/-- The right half of the stored tile as one vector: the logistic of the tile's product. -/
def rightHalf (x0 x1 : Vec Ideal S3000x64 .f32) (x2 : Vec Ideal S64x64 .f32) : FVec Ideal S3000x64 .f32 :=
  logistic (matmul dot_S3000x64_S64x64_S3000x64_1_0_0_1_n_n none
    (truncf .bf16 (subf (mulf (broadcast S3000x64 (Scalar.ofBits (F := Ideal) .f32 0x40000000#32)) x0) x1) bitsLt_bf16_f32)
    (truncf .bf16 x2 bitsLt_bf16_f32) (constant (F := Ideal) S3000x64 .f32 0x00000000#32))

/-- The stored tile is the loaded embeddings joined, along the columns, with the right half. -/
theorem stored_eq (x0 x1 : Vec Ideal S3000x64 .f32) (x2 : Vec Ideal S64x64 .f32) :
    k0_pay1 (F := Ideal) x0 x1 x2
      = concatenate S3000x128 1 [⟨S3000x64, x0⟩, ⟨S3000x64, rightHalf x0 x1 x2⟩] concatenates_S3000x64_S3000x64_S3000x128_d1 := by
  unfold k0_pay1 rightHalf
  have e0 : shapeCast (α := Ideal .f32) S3000x64 x0 shapeCasts_S3000x64_S3000x64 = x0 :=
    shapeCast_self (s := S3000x64) (α := Ideal .f32) x0 _
  have e1 : shapeCast (α := Ideal .f32) S3000x64 x1 shapeCasts_S3000x64_S3000x64 = x1 :=
    shapeCast_self (s := S3000x64) (α := Ideal .f32) x1 _
  rw [e0, e1]

/-- An entry of the right half. -/
theorem rightHalf_apply (x0 x1 : Vec Ideal S3000x64 .f32) (x2 : Vec Ideal S64x64 .f32) (p : Fin 3000) (j : Fin 64) :
    rightHalf x0 x1 x2 (ix2 p j)
      = Ideal.logistic (∑ k : Fin 64, (two * x0 (ix2 p k) - x1 (ix2 p k)) * x2 (ix2 k j)) := by
  unfold rightHalf
  refine congrArg Ideal.logistic ((tile_product _ _ p j).trans ?_)
  rfl

/-- A left-half entry of the stored tile is the loaded embedding. -/
theorem stored_left (x0 x1 : Vec Ideal S3000x64 .f32) (x2 : Vec Ideal S64x64 .f32) (p : Fin 3000) (q : Fin 128) (h : q.val < 64) :
    k0_pay1 (F := Ideal) x0 x1 x2 (ix2 p q) = x0 (ix2 p ⟨q.val, h⟩) := by
  rw [stored_eq]
  refine concatenate_pair_apply_left (1 : Fin S3000x128.rank) x0 _ concatenates_S3000x64_S3000x64_S3000x128_d1 (ix2 p q) rfl (ix2 p ⟨q.val, h⟩) fun b => ?_
  match b with
  | ⟨0, _⟩ => rfl
  | ⟨1, _⟩ => rfl

/-- A right-half entry of the stored tile is the filtered one, the column counted from 64. -/
theorem stored_right (x0 x1 : Vec Ideal S3000x64 .f32) (x2 : Vec Ideal S64x64 .f32) (p : Fin 3000) (q : Fin 128) (h : 64 ≤ q.val) :
    k0_pay1 (F := Ideal) x0 x1 x2 (ix2 p q)
      = Ideal.logistic (∑ k : Fin 64, (two * x0 (ix2 p k) - x1 (ix2 p k)) * x2 (ix2 k ⟨q.val - 64, by have := q.isLt; omega⟩)) := by
  rw [stored_eq, ← rightHalf_apply]
  refine concatenate_pair_apply_right (1 : Fin S3000x128.rank) x0 _ concatenates_S3000x64_S3000x64_S3000x128_d1 (ix2 p q) rfl rfl (ix2 p ⟨q.val - 64, by have := q.isLt; omega⟩) (fun b hb => ?_) ?_
  · match b with
    | ⟨0, _⟩ => rfl
    | ⟨1, _⟩ => exact absurd rfl hb
  · show (q.val - 64) + 64 = q.val
    omega

end Cert.KernelIdeal.Tile

end
-- ==== Proof.Region.lean ====
/-
  The kernel's two results as the specification's rows.

  The region runs over 100 grid points. At point `t` it is handed rows `3000·t … 3000·t + 2999` of the embedding table
  and of the aggregated table, and the whole filter, and it writes back rows `3000·t … 3000·t + 2999` of the 300000 × 128
  output. A row of the specification depends only on the same row of the two tables, so what point `t` writes back is
  exactly that band of rows of `combined emb agg filt`; the 100 bands tile the output, so after the region the output
  array is the specification. The host lines after the region cut it into the users' and the items' rows.
  The two tables the region finds are what the host lines before it computed from the arguments.
-/
import proofs.«139854_j4269197492539_1_alg».proof.Proof.Gen.KernelIdeal.Frame
import proofs.«139854_j4269197492539_1_alg».proof.Proof.Tile
import Idealize.ShloMosaic.Lib.Pipeline.Value
import Idealize.ShloMosaic.Lib.StableHlo.Run
import Idealize.ShloMosaic.Lib.Tactic

noncomputable section

namespace Cert.KernelIdeal.Region

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Combine (two filtered combined)

variable (m : (ℓ : Loc nD τ sig) → Buf (Elt Ideal) ℓ) (ρ : Dev nD → PrngReg)

theorem zero_offsets : (![0, 0] : Fin 2 → Nat) = fun _ => 0 := funext fun a => by fin_cases a <;> rfl

/-! ## The arrays the region finds, and its tiles, at their literal types -/

/-- The embedding table, the aggregated table and the filter as the region finds them. -/
abbrev embArr (c : Dev nD) : S300000x64.Idx → EReal := V m c main_v0
abbrev aggArr (c : Dev nD) : S300000x64.Idx → EReal := V m c main_v13
abbrev filtArr (c : Dev nD) : S64x64.Idx → EReal := V m c main_arg5
/-- The tiles point `t` is handed. -/
abbrev embTile (c : Dev nD) (t : Fin cfg0.N) : Vec Ideal S3000x64 .f32 := iblk m c 0 t
abbrev aggTile (c : Dev nD) (t : Fin cfg0.N) : Vec Ideal S3000x64 .f32 := iblk m c 1 t
abbrev filtTile (c : Dev nD) (t : Fin cfg0.N) : Vec Ideal S64x64 .f32 := iblk m c 2 t

/-- The block each window is on at point `t`: the two tables and the output move down with `t`, the filter stays. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(p, k)` of the embedding tile at point `t` is entry `(3000·t + p, k)` of the table. -/
theorem embTile_apply (c : Dev nD) (t : Fin cfg0.N) (p : Fin 3000) (k : Fin 64) (r : Fin 300000)
    (hr : r.val = t.val * 3000 + p.val) : embTile m c t (ix2 p k) = embArr m c (ix2 r k) := by
  obtain ⟨e0, e1, -⟩ := block_index t
  show iblk m c 0 t (ix2 p k) = _
  unfold iblk
  rw [View.read_apply]
  show embArr m c _ = embArr m c _
  refine congrArg (embArr m c) (funext fun a => Fin.ext ?_)
  match a with
  | ⟨0, _⟩ => show win0_0.index t (0 : Fin 2) * 3000 + 1 * p.val = r.val; rw [e0, hr]; omega
  | ⟨1, _⟩ => show win0_0.index t (1 : Fin 2) * 64 + 1 * k.val = k.val; rw [e1]; omega

/-- The same for the aggregated table's tile. -/
theorem aggTile_apply (c : Dev nD) (t : Fin cfg0.N) (p : Fin 3000) (k : Fin 64) (r : Fin 300000)
    (hr : r.val = t.val * 3000 + p.val) : aggTile m c t (ix2 p k) = aggArr m c (ix2 r k) := by
  obtain ⟨-, -, e0, e1, -⟩ := block_index t
  show iblk m c 1 t (ix2 p k) = _
  unfold iblk
  rw [View.read_apply]
  show aggArr m c _ = aggArr m c _
  refine congrArg (aggArr m c) (funext fun a => Fin.ext ?_)
  match a with
  | ⟨0, _⟩ => show win0_1.index t (0 : Fin 2) * 3000 + 1 * p.val = r.val; rw [e0, hr]; omega
  | ⟨1, _⟩ => show win0_1.index t (1 : Fin 2) * 64 + 1 * k.val = k.val; rw [e1]; omega

/-- The filter's tile is the whole filter at every point. -/
theorem filtTile_apply (c : Dev nD) (t : Fin cfg0.N) (k j : Fin 64) :
    filtTile m c t (ix2 k j) = filtArr m c (ix2 k j) := by
  obtain ⟨-, -, -, -, e0, e1, -⟩ := block_index t
  show iblk m c 2 t (ix2 k j) = _
  unfold iblk
  rw [View.read_apply]
  show filtArr m c _ = filtArr m c _
  refine congrArg (filtArr m c) (funext fun a => Fin.ext ?_)
  match a with
  | ⟨0, _⟩ => show win0_2.index t (0 : Fin 2) * 64 + 1 * k.val = k.val; rw [e0]; omega
  | ⟨1, _⟩ => show win0_2.index t (1 : Fin 2) * 64 + 1 * j.val = j.val; rw [e1]; omega

/-! ## What a point writes back -/

/-- Entry `j` of the tile stored at point `t` is the specification at row `3000·t + j₀`, column `j₁`. -/
theorem stored_entry (c : Dev nD) (t : Fin cfg0.N) (j : S3000x128.Idx) (i : S300000x128.Idx)
    (hi0 : (i 0).val = t.val * 3000 + (j 0).val) (hi1 : (i 1).val = (j 1).val) :
    k0_pay1 (F := Ideal) (embTile m c t) (aggTile m c t) (filtTile m c t) j
      = combined (embArr m c) (aggArr m c) (filtArr m c) i := by
  obtain ⟨p, q, rfl⟩ : ∃ (p : Fin 3000) (q : Fin 128), j = ix2 p q := ⟨j 0, j 1, eq_ix2 j⟩
  obtain ⟨r, q', rfl⟩ : ∃ (r : Fin 300000) (q' : Fin 128), i = ix2 r q' := ⟨i 0, i 1, eq_ix2 i⟩
  obtain rfl : q' = q := Fin.ext hi1
  have hr : r.val = t.val * 3000 + p.val := hi0
  by_cases h : q'.val < 64
  · rw [Cert.KernelIdeal.Tile.stored_left (embTile m c t) (aggTile m c t) (filtTile m c t) p q' h,
      Cert.Combine.combined_left _ _ _ r q' h]
    exact embTile_apply m c t p ⟨q'.val, h⟩ r hr
  · have h' : 64 ≤ q'.val := Nat.le_of_not_lt h
    rw [Cert.KernelIdeal.Tile.stored_right (embTile m c t) (aggTile m c t) (filtTile m c t) p q' h',
      Cert.Combine.combined_right _ _ _ r q' h']
    unfold Cert.Combine.filtered
    refine congrArg Ideal.logistic (Finset.sum_congr rfl fun k _ => ?_)
    rw [embTile_apply m c t p k r hr, aggTile_apply m c t p k r hr, filtTile_apply m c t k _]

/-- WHAT POINT `t` WRITES BACK is block `t` of the specification of the arrays the region finds. -/
theorem flushed_eq (c : Dev nD) (t : Fin cfg0.N) :
    (dats m 0 c).flushed 3 t
      = ((cfg0.win 3).blk t).view.read (Elt Ideal) (combined (embArr m c) (aggArr m c) (filtArr m c)) := by
  show (cfg0.win 3).cut (grid0.coords t) ((dats m 0 c).after 3 t) = _
  rw [after0_3]
  unfold out0_3
  rw [View.canon_unit_zero zero_offsets]
  simp only [View.ld_unit_zero (S := S3000x64) zero_offsets, View.ld_unit_zero (S := S64x64) zero_offsets]
  obtain ⟨-, -, -, -, -, -, e0, e1⟩ := block_index t
  funext j
  show k0_pay1 (F := Ideal) (embTile m c t) (aggTile m c t) (filtTile m c t) j
    = combined (embArr m c) (aggArr m c) (filtArr m c) (((cfg0.win 3).blk t).view.emb j)
  refine stored_entry m c t j _ ?_ ?_
  · show win0_3.index t (0 : Fin 2) * 3000 + 1 * (j 0).val = t.val * 3000 + (j 0).val
    rw [e0]; omega
  · show win0_3.index t (1 : Fin 2) * 128 + 1 * (j 1).val = (j 1).val
    rw [e1]; omega

/-! ## The output array after the region -/

/-- An index of the output is in point `t`'s block iff each coordinate is in the block's range on its axis. -/
theorem mem_block (t : Fin cfg0.N) (i : S300000x128.Idx) :
    i ∈ ((cfg0.win 3).blk t).view.set ↔ ∀ a : Fin 2, win0_3.index t a * S3000x128.size a ≤ (i a).val
      ∧ (i a).val < win0_3.index t a * S3000x128.size a + S3000x128.size a := by
  show i ∈ ((View.whole main_v14).slice (win0_3.rect t)).set ↔ _
  rw [View.set_slice_whole, Rect.mem_set_unit]
  exact Iff.rfl

/-- Row `r` of the output is in the block of point `r / 3000`: the 100 bands of 3000 rows tile it. -/
theorem bands_cover (i : S300000x128.Idx) :
    ∃ t : Fin cfg0.N, (cfg0.win 3).flush t = true ∧ i ∈ ((cfg0.win 3).blk t).view.set := by
  have hi0 : (i 0).val < 300000 := (i 0).isLt
  have hi1 : (i 1).val < 128 := (i 1).isLt
  have hN : cfg0.N = 100 := N_0
  obtain ⟨t, ht⟩ : ∃ t : Fin cfg0.N, t.val = (i 0).val / 3000 := ⟨⟨(i 0).val / 3000, by rw [hN]; omega⟩, rfl⟩
  obtain ⟨-, -, -, -, -, -, e0, e1⟩ := block_index t
  refine ⟨t, flush0_3 t, ?_⟩
  rw [mem_block]
  intro a
  match a with
  | ⟨0, _⟩ =>
    show win0_3.index t (0 : Fin 2) * 3000 ≤ (i 0).val ∧ (i 0).val < win0_3.index t (0 : Fin 2) * 3000 + 3000
    rw [e0, ht]; omega
  | ⟨1, _⟩ =>
    show win0_3.index t (1 : Fin 2) * 128 ≤ (i 1).val ∧ (i 1).val < win0_3.index t (1 : Fin 2) * 128 + 128
    rw [e1]; omega

/-- THE OUTPUT ARRAY after the region is the specification of the arrays the region finds. -/
theorem output_eq (c : Dev nD) :
    (dats m 0 c).arrAt 3 cfg0.N = combined (embArr m c) (aggArr m c) (filtArr m c) :=
  (dats m 0 c).arrAt_eq_of_cover 3 _ (fun t _ => flushed_eq m c t) bands_cover

end Cert.KernelIdeal.Region

end
-- ==== Proof.Results.lean ====
/-
  The kernel's run, read: its two results as rows of the specification of the ARGUMENTS.

  The host lines before the region build the two tables from the arguments: `emb` is the users' embeddings above the
  items', and `agg` sums, into row `rows[e]`, the row `cols[e]` of `emb` (a negative column counted from the end) scaled
  by `vals[e]`, over all edges `e`. Neither is opened here: both programs apply the same operations to the same
  arguments, so they are carried as two terms. The region's output is the specification of these two tables and
  the filter, and the two host lines after it cut out rows 0..199999 (the users) and rows 200000..299999 (the items).
-/
import proofs.«139854_j4269197492539_1_alg».proof.Proof.Region

noncomputable section

namespace Cert.KernelIdeal.Results

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Combine (combined)
open Cert.KernelIdeal.Region

variable (m : (ℓ : Loc nD τ sig) → Buf (Elt Ideal) ℓ) (ρ : Dev nD → PrngReg)

/-! ## The two tables as terms of the arguments -/

/-- The embedding table: the users' rows above the items'. -/
def embOf (c : Dev nD) : S300000x64.Idx → EReal :=
  concatenate S300000x64 0 [⟨S200000x64, (m ((c.tc : Thread nD τ).loc main_arg3))⟩, ⟨S100000x64, (m ((c.tc : Thread nD τ).loc main_arg4))⟩] concatenates_S200000x64_S100000x64_S300000x64_d0

/-- The aggregated table: the edges' gathered and scaled rows of `emb`, summed into the edges' target rows. -/
def aggOf (c : Dev nD) : S300000x64.Idx → EReal :=
  Host.scatterAdd scatter_S300000x64_S1200000x1_S1200000x64_1_0_0_1 (broadcastInDim S300000x64 ![] bcast_S_S300000x64 (constant (F := Ideal) S_ .f32 0x00000000#32)) (broadcastInDim S1200000x1 ![0] bcast_S1200000_S1200000x1_0 (m ((c.tc : Thread nD τ).loc main_arg0))) (mulf (broadcastInDim S1200000x64 ![0, 1] bcast_S1200000x1_S1200000x64_0_1 (broadcastInDim S1200000x1 ![0] bcast_S1200000_S1200000x1_0 (m ((c.tc : Thread nD τ).loc main_arg2)))) (Host.gather gather_S300000x64_S1200000x1_S1200000x64_1_0_n_n_0_1_164 (embOf m c) (broadcastInDim S1200000x1 ![0] bcast_S1200000_S1200000x1_0 (select (cmpi .slt (m ((c.tc : Thread nD τ).loc main_arg1)) (broadcastInDim S1200000 ![] bcast_S_S1200000 (constantI S_ 32 0#32))) (addi (m ((c.tc : Thread nD τ).loc main_arg1)) (broadcastInDim S1200000 ![] bcast_S_S1200000 (constantI S_ 32 300000#32))) (m ((c.tc : Thread nD τ).loc main_arg1))))))

/-- The region finds the embedding table, -/
theorem emb_found (c : Dev nD) : embArr m c = embOf m c := by
  show StableHlo.after hostOps0 (fun b => m (c, b)) (Proc.devRef .tc main_v0) = _
  after_results
  rfl

/-- the aggregated table, -/
theorem agg_found (c : Dev nD) : aggArr m c = aggOf m c := by
  show StableHlo.after hostOps0 (fun b => m (c, b)) (Proc.devRef .tc main_v13) = _
  after_results
  rfl

/-- and the filter as launched. -/
theorem filt_found (c : Dev nD) : filtArr m c = m ((c.tc : Thread nD τ).loc main_arg5) := V_main_arg5 m c

/-! ## The two results -/

/-- The specification of the arguments. -/
def whole (c : Dev nD) : S300000x128.Idx → EReal :=
  combined (embOf m c) (aggOf m c) (m ((c.tc : Thread nD τ).loc main_arg5))

/-- The users' rows and the items' rows of it. -/
def users (c : Dev nD) : Buf (Elt Ideal) ((c.tc : Thread nD τ).loc main_v15) :=
  extractStridedSlice S200000x128 ![0, 0] (whole m c) slices_S300000x128_S200000x128_0_0
def items (c : Dev nD) : Buf (Elt Ideal) ((c.tc : Thread nD τ).loc main_v16) :=
  extractStridedSlice S100000x128 ![200000, 0] (whole m c) slices_S300000x128_S100000x128_200000_0

/-- What the lines after the region read: the region's output array, which is the specification. -/
theorem output_found (c : Dev nD) :
    Pipeline.withArrays (cfgs 0).spec c (V0 m c) (fun w => (dats m 0 c).arrAt w (cfgs 0).N) (Proc.devRef .tc main_v14)
      = whole m c := by
  refine ((Pipeline.withArrays_arr spec0 launch0.win.arr_inj c _ _ 3).trans (output_eq m c)).trans ?_
  rw [emb_found, agg_found, filt_found]
  rfl

theorem users_found (c : Dev nD) : Pipeline.afterTail₀ cfgs (dats m) 0 (V0 m) [hostOps1] c main_v15 = users m c := by
  unfold Pipeline.afterTail₀
  show StableHlo.after hostOps1 _ (Proc.devRef .tc main_v15) = _
  after_results
  rw [output_found]
  rfl

theorem items_found (c : Dev nD) : Pipeline.afterTail₀ cfgs (dats m) 0 (V0 m) [hostOps1] c main_v16 = items m c := by
  unfold Pipeline.afterTail₀
  show StableHlo.after hostOps1 _ (Proc.devRef .tc main_v16) = _
  after_results
  rw [output_found]
  rfl

/-! ## The run -/

/-- Every weakly fair execution of the kernel's program ends with its two results at the users' and the items' rows of the
    specification of the arguments, and with the arguments as launched. -/
theorem run : θ_run defs (onTc (τ := τ) (main (F := Ideal))) ⟨m, fun _ => 0, ρ⟩ fun r => ∀ c : Dev nD,
      r.2.mem ((c.tc : Thread nD τ).loc main_v15) = users m c
      ∧ r.2.mem ((c.tc : Thread nD τ).loc main_v16) = items m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      ((h c).2 main_v15 (Pipeline.mem_restRefs_of main_v15 (by decide) (by decide))).trans (users_found m c),
      ((h c).2 main_v16 (Pipeline.mem_restRefs_of main_v16 (by decide) (by decide))).trans (items_found m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 2).trans (((dats m 0 c).arrAt_in 2 rfl _).trans ((A_eq m c 2).trans (V_main_arg5 m c)))⟩)
    (run_main m ρ)

end Cert.KernelIdeal.Results

end
-- ==== Proof.lean ====
/-
  The certificate of a graph-filter layer: with `emb` the users' embeddings above the items', and `agg` the
  neighbourhood sums of `emb` along the weighted edges, both programs return the users' and the items' rows of the
  300000 × 128 array whose row `r` is `emb[r, ·]` followed by `σ((2·emb[r, ·] − agg[r, ·]) · filt)`, σ the logistic.

  The kernel computes that array in 100 bands of 3000 rows (a band of the result needs only the same band of `emb`
  and `agg`), narrowing both factors of the product, which on the extended reals changes nothing, and applying the
  logistic as one operation; the reference computes it whole and spells the logistic as `1 / (1 + e^(−s))`. On the
  extended reals these are the same function of `emb`, `agg` and `filt` entry by entry: the product is the same sum
  over the contracted index on both sides, with no regrouping, so no finiteness of the inputs is used. The two
  tables `emb` and `agg` are built by the same host operations in both programs and are never opened.
-/
import proofs.«139854_j4269197492539_1_alg».proof.Defs
import proofs.«139854_j4269197492539_1_alg».proof.Proof.Gen.Kernel
import proofs.«139854_j4269197492539_1_alg».proof.Proof.Gen.Kernel.Skeleton
import proofs.«139854_j4269197492539_1_alg».proof.Proof.Gen.Kernel.Launch
import proofs.«139854_j4269197492539_1_alg».proof.Proof.Gen.Kernel.Points
import proofs.«139854_j4269197492539_1_alg».proof.Proof.Gen.Kernel.Frame
import proofs.«139854_j4269197492539_1_alg».proof.Proof.Gen.KernelIdeal
import proofs.«139854_j4269197492539_1_alg».proof.Proof.Gen.KernelIdeal.Skeleton
import proofs.«139854_j4269197492539_1_alg».proof.Proof.Gen.KernelIdeal.Launch
import proofs.«139854_j4269197492539_1_alg».proof.Proof.Gen.KernelIdeal.Points
import proofs.«139854_j4269197492539_1_alg».proof.Proof.Gen.KernelIdeal.Frame
import proofs.«139854_j4269197492539_1_alg».proof.Proof.Gen.ReferenceIdeal
import proofs.«139854_j4269197492539_1_alg».proof.Proof.Gen.Pre_finite_inputs
import proofs.«139854_j4269197492539_1_alg».proof.Proof.RefRun
import proofs.«139854_j4269197492539_1_alg».proof.Proof.RefRead
import proofs.«139854_j4269197492539_1_alg».proof.Proof.Whole
import proofs.«139854_j4269197492539_1_alg».proof.Proof.Results
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and keeps its arguments: its run with the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- Nothing was rewritten when the kernel was read on the extended reals. -/
theorem preserves : Cert.preserves_Kernel_KernelIdeal := trivial

/-- From memories that agree on the arguments both programs end with the users' and the items' rows of the specification
    of those arguments: the kernel by its bands, the reference entry by entry. -/
theorem algebraic : Cert.algebraic_KernelIdeal_ReferenceIdeal := by
  intro m ρ m' ρ' _ hagree
  refine ⟨_, _, Cert.KernelIdeal.Results.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [(hagree c).1, (hagree c).2.1, (hagree c).2.2.1, (hagree c).2.2.2.1, (hagree c).2.2.2.2.1, (hagree c).2.2.2.2.2]
    exact (Cert.ReferenceIdeal.ReadP.val_main_v25_eq _ _ _ _ _ _).trans
      ((Cert.ReferenceIdeal.Whole.users_eq _ _ _ _ _ _).trans rfl)
  · rw [(hagree c).1, (hagree c).2.1, (hagree c).2.2.1, (hagree c).2.2.2.1, (hagree c).2.2.2.2.1, (hagree c).2.2.2.2.2]
    exact (Cert.ReferenceIdeal.ReadP.val_main_v26_eq _ _ _ _ _ _).trans
      ((Cert.ReferenceIdeal.Whole.items_eq _ _ _ _ _ _).trans rfl)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
